-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S3936 : Shape := ⟨1, ![3936]⟩
abbrev S1703936 : Shape := ⟨1, ![1703936]⟩
abbrev S1703936x1 : Shape := ⟨2, ![1703936, 1]⟩
abbrev S1703936x128 : Shape := ⟨2, ![1703936, 128]⟩
abbrev S8192x128 : Shape := ⟨2, ![8192, 128]⟩
abbrev S8192x1 : Shape := ⟨2, ![8192, 1]⟩
abbrev S1x128 : Shape := ⟨2, ![1, 128]⟩
abbrev S2000x128 : Shape := ⟨2, ![2000, 128]⟩

abbrev nBuf : Space → Nat
  | .hbm => 84
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S3936, .i32⟩
  | .hbm, ⟨46, _⟩ => ⟨S1703936, .i32⟩
  | .hbm, ⟨47, _⟩ => ⟨S_, .i32⟩
  | .hbm, ⟨48, _⟩ => ⟨S3936, .i32⟩
  | .hbm, ⟨49, _⟩ => ⟨S1703936, .i32⟩
  | .hbm, ⟨50, _⟩ => ⟨S_, .f32⟩
  | .hbm, ⟨51, _⟩ => ⟨S3936, .f32⟩
  | .hbm, ⟨52, _⟩ => ⟨S1703936, .f32⟩
  | .hbm, ⟨53, _⟩ => ⟨S1703936x1, .f32⟩
  | .hbm, ⟨54, _⟩ => ⟨S_, .i32⟩
  | .hbm, ⟨55, _⟩ => ⟨S1703936, .i32⟩
  | .hbm, ⟨56, _⟩ => ⟨S1703936, .i1⟩
  | .hbm, ⟨57, _⟩ => ⟨S_, .i32⟩
  | .hbm, ⟨58, _⟩ => ⟨S1703936, .i32⟩
  | .hbm, ⟨59, _⟩ => ⟨S1703936, .i32⟩
  | .hbm, ⟨60, _⟩ => ⟨S1703936, .i32⟩
  | .hbm, ⟨61, _⟩ => ⟨S1703936x1, .i32⟩
  | .hbm, ⟨62, _⟩ => ⟨S1703936x128, .f32⟩
  | .hbm, ⟨63, _⟩ => ⟨S1703936x128, .f32⟩
  | .hbm, ⟨64, _⟩ => ⟨S_, .f32⟩
  | .hbm, ⟨65, _⟩ => ⟨S100000x128, .f32⟩
  | .hbm, ⟨66, _⟩ => ⟨S1703936x1, .i32⟩
  | .hbm, ⟨67, _⟩ => ⟨S100000x128, .f32⟩
  | .hbm, ⟨68, _⟩ => ⟨S_, .i32⟩
  | .hbm, ⟨69, _⟩ => ⟨S1703936, .i32⟩
  | .hbm, ⟨70, _⟩ => ⟨S1703936, .i1⟩
  | .hbm, ⟨71, _⟩ => ⟨S_, .i32⟩
  | .hbm, ⟨72, _⟩ => ⟨S1703936, .i32⟩
  | .hbm, ⟨73, _⟩ => ⟨S1703936, .i32⟩
  | .hbm, ⟨74, _⟩ => ⟨S1703936, .i32⟩
  | .hbm, ⟨75, _⟩ => ⟨S1703936x1, .i32⟩
  | .hbm, ⟨76, _⟩ => ⟨S1703936x128, .f32⟩
  | .hbm, ⟨77, _⟩ => ⟨S1703936x128, .f32⟩
  | .hbm, ⟨78, _⟩ => ⟨S_, .f32⟩
  | .hbm, ⟨79, _⟩ => ⟨S100000x128, .f32⟩
  | .hbm, ⟨80, _⟩ => ⟨S1703936x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S8192x128, .f32⟩
  | .local _ .vmem, ⟨1, _⟩ => ⟨S8192x128, .f32⟩
  | .local _ .vmem, ⟨2, _⟩ => ⟨S8192x1, .f32⟩
  | .local _ .vmem, ⟨3, _⟩ => ⟨S8192x1, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x1, .f32⟩
  | .local _ .vmem, ⟨9, _⟩ => ⟨S8192x1, .f32⟩
  | .local _ .vmem, ⟨10, _⟩ => ⟨S8192x128, .f32⟩
  | .local _ .vmem, ⟨11, _⟩ => ⟨S8192x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_12 : Ref sig .tc := ⟨.hbm, 68, rfl⟩
abbrev main_v48 : Ref sig .tc := ⟨.hbm, 69, rfl⟩
abbrev main_v49 : Ref sig .tc := ⟨.hbm, 70, rfl⟩
abbrev main_c_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![208], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S3936 : S_.BroadcastsInDim S3936 (![] : Fin 0 → Fin S3936.rank)
  concatenates_S1700000_S3936_S1703936_d0 : Shape.Concatenates [S1700000, S3936] S1703936 0
  shapeCasts_S1703936_S1703936x1 : S1703936.ShapeCasts S1703936x1
  bcast_S_S1703936 : S_.BroadcastsInDim S1703936 (![] : Fin 0 → Fin S1703936.rank)
  bcast_S1703936_S1703936x1_0 : S1703936.BroadcastsInDim S1703936x1 (![0] : Fin 1 → Fin S1703936x1.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1703936x1_S1703936x128_1_0_n_n_0_1_1128_wf : GatherDims.WF S100000x128 S1703936x1 S1703936x128 [1] [0] [] [0] [] 1 ![1, 128]
  scatter_S100000x128_S1703936x1_S1703936x128_1_0_0_1_wf : ScatterDims.WF S100000x128 S1703936x1 S1703936x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1703936x128.size a
  hwx0_0 : ∀ i : grid0.Coords, EltTy.bits .f32 = 32 ∨ (Rect.block (s := S1703936x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1703936x1.size a
  hwx0_1 : ∀ i : grid0.Coords, EltTy.bits .f32 = 32 ∨ (Rect.block (s := S1703936x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S1703936x128.size a
  hwx0_2 : ∀ i : grid0.Coords, EltTy.bits .f32 = 32 ∨ (Rect.block (s := S1703936x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1703936x128.size a
  hwx1_2 : ∀ i : grid1.Coords, EltTy.bits .f32 = 32 ∨ (Rect.block (s := S1703936x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v43) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of one propagation hop and of the final layer, as whole-array functions.

  Both programs compute, from the edge list, a source table `S`, a destination table `D` (1,700,000 entries
  each: the given edges followed by one self-loop per node) and an edge weight `Nm`.  One hop sends node
  features `h` to  out[v] = Σ_{e : D e = v} h[S e] · Nm e  (rows of 128 features; a negative table entry is first
  shifted by the node count, an entry outside the node range is clamped by the read and dropped by the sum).
  The reference does this over the 1,700,000 edges.  The kernel pads the three tables with 3,936 further edges
  (source 0, destination 0, weight 0) up to 208 · 8192 rows, multiplies rows by weights in blocks, and sums over
  all 1,703,936 rows.  `hopR` and `hopK` are those two functions; `linear` is the closing layer h · W + b.
-/
import proofs.«164959_j34892314312745_1_alg».proof.Proof.Gen.KernelIdeal
import proofs.«164959_j34892314312745_1_alg».proof.Proof.Gen.ReferenceIdeal
import Idealize.ShloMosaic.PureOps.Ideal
import Idealize.ShloMosaic.Lib.ValueIdx

noncomputable section

namespace Cert.Spec

open Idealize.ShloMosaic

variable {F : FTy → Type} [FloatOps F]

/-! ## The reference's hop, over the 1,700,000 edges -/

section Reference
open Cert.ReferenceIdeal Cert.ReferenceIdeal.Facts₀

/-- A table entry below zero is shifted up by the node count (how `x[idx]` reads a negative index). -/
def wrapR (S : IVec S1700000 32) : IVec S1700000 32 :=
  select (cmpi .slt S (broadcastInDim S1700000 ![] bcast_S_S1700000 (constantI S_ 32 0#32)))
    (addi S (broadcastInDim S1700000 ![] bcast_S_S1700000 (constantI S_ 32 100000#32))) S

/-- One hop of the reference: rows of `h` read at the (shifted) sources, each times its edge's weight, summed into
    the rows the destinations name, from zero. -/
def hopR (S D : IVec S1700000 32) (Nm : FVec F S1700000 .f32) (h : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 D)
    (mulf (Host.gather gather_S100000x128_S1700000x1_S1700000x128_1_0_n_n_0_1_1128 h
            (broadcastInDim S1700000x1 ![0] bcast_S1700000_S1700000x1_0 (wrapR S)))
      (broadcastInDim S1700000x128 ![0, 1] bcast_S1700000x1_S1700000x128_0_1
        (broadcastInDim S1700000x1 ![0] bcast_S1700000_S1700000x1_0 Nm)))

end Reference

/-! ## The kernel's hop, over the 1,703,936 padded rows -/

section Kernel
open Cert.KernelIdeal Cert.KernelIdeal.Facts₀

/-- An index table padded with 3,936 zeros. -/
def padI (S : IVec S1700000 32) : IVec S1703936 32 :=
  concatenate S1703936 0 [⟨S1700000, S⟩, ⟨S3936, broadcastInDim S3936 ![] bcast_S_S3936 (constantI S_ 32 0#32)⟩]
    concatenates_S1700000_S3936_S1703936_d0

/-- The weights padded with 3,936 zeros. -/
def padF (Nm : FVec F S1700000 .f32) : FVec F S1703936 .f32 :=
  concatenate S1703936 0 [⟨S1700000, Nm⟩, ⟨S3936, broadcastInDim S3936 ![] bcast_S_S3936 (constant S_ .f32 0x00000000#32)⟩]
    concatenates_S1700000_S3936_S1703936_d0

/-- The same shift of negative entries, on the padded table. -/
def wrapK (P : IVec S1703936 32) : IVec S1703936 32 :=
  select (cmpi .slt P (broadcastInDim S1703936 ![] bcast_S_S1703936 (constantI S_ 32 0#32)))
    (addi P (broadcastInDim S1703936 ![] bcast_S_S1703936 (constantI S_ 32 100000#32))) P

/-- What the row-scaling kernel leaves in its output array: row `r` of `g` times entry `(r, 0)` of the weight column. -/
def scaleRows (g : FVec F S1703936x128 .f32) (n : FVec F S1703936x1 .f32) : FVec F S1703936x128 .f32 :=
  fun i => FloatOps.mulf (g i) (n (ValueIdx.ix2 (i 0) (0 : Fin 1)))

/-- One hop of the kernel: rows of `h` read at the padded (shifted) sources, scaled by the padded weight column,
    summed into the rows the padded destinations name, from zero. -/
def hopK (S D : IVec S1700000 32) (Nm : FVec F S1700000 .f32) (h : FVec F S100000x128 .f32) : FVec F S100000x128 .f32 :=
  Host.scatterAdd scatter_S100000x128_S1703936x1_S1703936x128_1_0_0_1
    (broadcastInDim S100000x128 ![] bcast_S_S100000x128 (constant S_ .f32 0x00000000#32))
    (broadcastInDim S1703936x1 ![0] bcast_S1703936_S1703936x1_0 (padI D))
    (scaleRows
      (Host.gather gather_S100000x128_S1703936x1_S1703936x128_1_0_n_n_0_1_1128 h
        (broadcastInDim S1703936x1 ![0] bcast_S1703936_S1703936x1_0 (wrapK (padI S))))
      (shapeCast S1703936x1 (padF Nm) shapeCasts_S1703936_S1703936x1))

/-- What the closing layer's kernel leaves in its output array, on the extended reals: entry `(r, c)` is
    Σ_k h[r, k] · W[k, c] + b[0, c]. -/
def linear (h : FVec Ideal S100000x128 .f32) (W : FVec Ideal S128x128 .f32) (b2 : FVec Ideal S1x128 .f32) :
    FVec Ideal S100000x128 .f32 :=
  fun i => (∑ k : Fin 128, h (ValueIdx.ix2 (i 0) k) * W (ValueIdx.ix2 k (i 1))) + b2 (ValueIdx.ix2 (0 : Fin 1) (i 1))

end Kernel

end Cert.Spec

end
-- ==== Proof.RefValue.lean ====
/-
  The reference's result as two hops and the closing layer: its staged value `val_main_v59` is
  (hop (hop x)) · W + b, entry (r, c) being Σ_k h[r, k] · W[k, c] + b[c] on the extended reals.
-/
import proofs.«164959_j34892314312745_1_alg».proof.Proof.RefRead
import proofs.«164959_j34892314312745_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.ReadP Idealize.ShloMosaic Idealize.ShloMosaic.ValueIdx

variable {F : FTy → Type} [FloatOps F]

/-- The reference's first scatter-add is one hop of the node features, over its own source, destination and weight
    tables. -/
theorem first_hop (x0 : (⟨S100000x128, .f32⟩ : BufTy).Contents (Elt F)) (x1 : (⟨S2x1600000, .i32⟩ : BufTy).Contents (Elt F)) :
    val_main_v42 (F := F) x0 x1
      = Cert.Spec.hopR (F := F) (val_main_v3 (F := F) x1) (val_main_v6 (F := F) x1) (val_main_v29 (F := F) x1) x0 := by
  unfold val_main_v42 val_main_v41 val_main_v40 val_main_v39 val_main_v38 val_main_v37 val_main_v36 val_main_v35
    val_main_v34 val_main_v33 val_main_v32 val_main_v31 val_main_v30 val_main_c_6 val_main_c_7 val_main_cst_8
    Cert.Spec.hopR Cert.Spec.wrapR
  rfl

/-- Its second scatter-add is one more hop, of the first hop's result, over the same tables. -/
theorem second_hop (x0 : (⟨S100000x128, .f32⟩ : BufTy).Contents (Elt F)) (x1 : (⟨S2x1600000, .i32⟩ : BufTy).Contents (Elt F)) :
    val_main_v55 (F := F) x0 x1
      = Cert.Spec.hopR (F := F) (val_main_v3 (F := F) x1) (val_main_v6 (F := F) x1) (val_main_v29 (F := F) x1)
          (val_main_v42 (F := F) x0 x1) := by
  unfold val_main_v55 val_main_v54 val_main_v53 val_main_v52 val_main_v51 val_main_v50 val_main_v49 val_main_v48
    val_main_v47 val_main_v46 val_main_v45 val_main_v44 val_main_v43 val_main_c_9 val_main_c_10 val_main_cst_11
    Cert.Spec.hopR Cert.Spec.wrapR
  rfl

/-- The bias as a [1, 128] row (the kernel's reshape of it) read at (0, c) is the bias at c. -/
theorem bias_row (x3 : (⟨S128, .f32⟩ : BufTy).Contents (Elt Ideal)) (q : Fin 128) :
    shapeCast Cert.KernelIdeal.S1x128 x3 Cert.KernelIdeal.Facts₀.shapeCasts_S128_S1x128 (ix2 (0 : Fin 1) q) = x3 (ix1 q) := by
  refine shapeCast_apply x3 _ _ _ ?_
  rw [Shape.rowMajor_val_one, Shape.rowMajor_val_two]
  show q.val = 0 * 128 + q.val
  omega

/-- The reference's result is the closing layer of the second hop: entry by entry the dot product of a row of the
    features with a column of the weights, plus the bias of that column. -/
theorem result_eq_linear (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v59 (F := Ideal) x0 x1 x2 x3
      = Cert.Spec.linear (val_main_v55 (F := Ideal) x0 x1) x2
          (shapeCast Cert.KernelIdeal.S1x128 x3 Cert.KernelIdeal.Facts₀.shapeCasts_S128_S1x128) := by
  funext i
  obtain ⟨p, q, rfl⟩ : ∃ (p : Fin 100000) (q : Fin 128), i = ix2 p q := ⟨i 0, i 1, eq_ix2 i⟩
  have el : ∀ k : Fin 128, lidx_main_v56 (ix2 p q) k = ix2 p k := fun k => funext fun a =>
    Fin.ext (by match a with | ⟨0, _⟩ => rfl | ⟨1, _⟩ => rfl)
  have er : ∀ k : Fin 128, ridx_main_v56 (ix2 p q) k = ix2 k q := fun k => funext fun a =>
    Fin.ext (by match a with | ⟨0, _⟩ => rfl | ⟨1, _⟩ => rfl)
  have eb : idx_main_v57 (idx_main_v58 (ix2 p q)) = ix1 q := funext fun a =>
    Fin.ext (by match a with | ⟨0, _⟩ => rfl)
  rw [val_main_v59_apply, val_main_v56_apply, val_main_v58_apply, val_main_v57_apply, eb]
  show _ = (∑ k : Fin 128, val_main_v55 (F := Ideal) x0 x1 (ix2 p k) * x2 (ix2 k q))
    + shapeCast Cert.KernelIdeal.S1x128 x3 Cert.KernelIdeal.Facts₀.shapeCasts_S128_S1x128 (ix2 (0 : Fin 1) q)
  rw [bias_row]
  simp only [el, er, Ideal.addf_def]

end Cert.ReferenceIdeal.RefValue

end
-- ==== Proof.IndexMaps.lean ====
/-
  The two row-gathers and the two row-scatters of this certificate differ only in their number of rows (1,700,000
  and 1,703,936).  A row-gather reads, for result entry (r, c), the operand at (the start index the table holds for
  row r, clamped into the node range, c); a row-scatter sends update entry (r, c) to (the start index the table holds
  for row r, c), or nowhere when that row is outside the node range.  So at entries with equal coordinates, under
  tables that hold the same word for that row, the two gathers read the same operand entry and the two scatters land
  at the same place.
-/
import proofs.«164959_j34892314312745_1_alg».proof.Proof.Spec
import Idealize.ShloMosaic.Lib.ValueIdx

noncomputable section

namespace Cert.Spec

open Idealize.ShloMosaic

/-! ## A row-gather read at an index -/

/-- The dimension numbers of a row-gather: operand `[N, C]`, one start word per result row (`[R, 1]`), result
    `[R, C]`; the start word names the operand row, the slice is one whole row. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result entry `(r, c)` of a row-gather reads the operand row that the start word of row `r` names, the word read
    signed and clamped into `[0, N − 1]` … -/
theorem rowGather_operandIdx_zero {N R C w : Nat}
    (wf : GatherDims.WF ⟨2, ![N, C]⟩ ⟨2, ![R, 1]⟩ ⟨2, ![R, C]⟩ [1] [0] [] [0] [] 1 ![1, C])
    (idx : IVec ⟨2, ![R, 1]⟩ w) (j : (⟨2, ![R, C]⟩ : Shape).Idx) :
    ((rowGatherDims N R C wf).operandIdx j idx 0).val
      = min (idx (ValueIdx.ix2 (j 0) (0 : Fin 1))).toInt.toNat (N - 1) := by
  show (rowGatherDims N R C wf).start j idx 0 + (rowGatherDims N R C wf).batchCoord j 0
    + (rowGatherDims N R C wf).offCoord j 0 = _
  have hcol : (0 : Fin 2) ∈ (rowGatherDims N R C wf).collapsedSliceDims := List.mem_singleton.mpr rfl
  rw [GatherDims.batchCoord_eq_zero _ _ _ List.not_mem_nil,
    GatherDims.offCoord_eq_zero _ _ _ (fun h => ((GatherDims.mem_sKept _ _).mp h).1 hcol)]
  simp only [Nat.add_zero]
  have hmap : (0 : Fin 2) ∈ (rowGatherDims N R C wf).startIndexMap := List.mem_singleton.mpr rfl
  unfold GatherDims.start
  rw [dif_pos hmap]
  have hsi : (rowGatherDims N R C wf).siIdx j ⟨List.idxOf (0 : Fin 2) (rowGatherDims N R C wf).startIndexMap,
      List.idxOf_lt_length_iff.2 hmap⟩ = ValueIdx.ix2 (j 0) (0 : Fin 1) := by
    funext b; refine Fin.ext ?_
    match b with
    | ⟨0, _⟩ => rfl
    | ⟨1, _⟩ => rfl
  rw [hsi]
  rfl

/-- … and operand column `c`. -/
theorem rowGather_operandIdx_one {N R C w : Nat}
    (wf : GatherDims.WF ⟨2, ![N, C]⟩ ⟨2, ![R, 1]⟩ ⟨2, ![R, C]⟩ [1] [0] [] [0] [] 1 ![1, C])
    (idx : IVec ⟨2, ![R, 1]⟩ w) (j : (⟨2, ![R, C]⟩ : Shape).Idx) :
    ((rowGatherDims N R C wf).operandIdx j idx 1).val = (j 1).val := by
  show (rowGatherDims N R C wf).start j idx 1 + (rowGatherDims N R C wf).batchCoord j 1
    + (rowGatherDims N R C wf).offCoord j 1 = _
  have h10 : (1 : Fin 2) ≠ 0 := by decide
  have hmap : (1 : Fin 2) ∉ (rowGatherDims N R C wf).startIndexMap := fun h => h10 (List.mem_singleton.mp h)
  have hkept : (1 : Fin 2) ∈ (rowGatherDims N R C wf).sKept :=
    (GatherDims.mem_sKept _ _).mpr ⟨fun h => h10 (List.mem_singleton.mp h), List.not_mem_nil⟩
  rw [GatherDims.batchCoord_eq_zero _ _ _ List.not_mem_nil]
  unfold GatherDims.start GatherDims.offCoord
  rw [dif_neg hmap, dif_pos hkept]
  simp only [Nat.add_zero, Nat.zero_add]
  rfl

/-- Two row-gathers over the same operand, with different numbers of result rows, read the same operand entry at
    result entries with equal column, when the start words of the two rows are equal. -/
theorem rowGather_agree {α : Type} {N R R' C w : Nat}
    (wf : GatherDims.WF ⟨2, ![N, C]⟩ ⟨2, ![R, 1]⟩ ⟨2, ![R, C]⟩ [1] [0] [] [0] [] 1 ![1, C])
    (wf' : GatherDims.WF ⟨2, ![N, C]⟩ ⟨2, ![R', 1]⟩ ⟨2, ![R', C]⟩ [1] [0] [] [0] [] 1 ![1, C])
    (x : (⟨2, ![N, C]⟩ : Shape).Idx → α) (idx : IVec ⟨2, ![R, 1]⟩ w) (idx' : IVec ⟨2, ![R', 1]⟩ w)
    (j : (⟨2, ![R, C]⟩ : Shape).Idx) (j' : (⟨2, ![R', C]⟩ : Shape).Idx) (h1 : (j 1).val = (j' 1).val)
    (hidx : idx (ValueIdx.ix2 (j 0) (0 : Fin 1)) = idx' (ValueIdx.ix2 (j' 0) (0 : Fin 1))) :
    Host.gather (rowGatherDims N R C wf) x idx j = Host.gather (rowGatherDims N R' C wf') x idx' j' := by
  show x ((rowGatherDims N R C wf).operandIdx j idx) = x ((rowGatherDims N R' C wf').operandIdx j' idx')
  congr 1
  funext a
  refine Fin.ext ?_
  match a with
  | ⟨0, _⟩ =>
    show ((rowGatherDims N R C wf).operandIdx j idx 0).val = ((rowGatherDims N R' C wf').operandIdx j' idx' 0).val
    rw [rowGather_operandIdx_zero, rowGather_operandIdx_zero, hidx]
  | ⟨1, _⟩ =>
    show ((rowGatherDims N R C wf).operandIdx j idx 1).val = ((rowGatherDims N R' C wf').operandIdx j' idx' 1).val
    rw [rowGather_operandIdx_one, rowGather_operandIdx_one, h1]

/-! ## A row-scatter's landing place -/

/-- The dimension numbers of a row-scatter: operand `[N, C]`, one index word per update row (`[R, 1]`), updates
    `[R, C]`; the index word names the operand row, the window is one whole row. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The signed landing coordinates of an update entry in column `c` whose row holds the index word `word`: the word
    read signed on the row axis, `c` on the column axis. -/
def rowLanding {w : Nat} (word : BitVec w) (c : Nat) : Fin 2 → Int :=
  fun a => match a with | ⟨0, _⟩ => word.toInt | ⟨1, _⟩ => (c : Int)

/-- Update entry `(r, c)` of a row-scatter lands, before the range test, at (the index word of row `r` read signed, `c`). -/
theorem rowScatter_landing {N R C w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (a : Fin 2) :
    (rowScatterDims N R C wf).start j idx a + (rowScatterDims N R C wf).window j a
      = rowLanding (idx (ValueIdx.ix2 (j 0) (0 : Fin 1))) (j 1).val a := by
  have h10 : (1 : Fin 2) ≠ 0 := by decide
  match a with
  | ⟨0, _⟩ =>
    have hmap : (0 : Fin 2) ∈ (rowScatterDims N R C wf).scatterDimsToOperandDims := List.mem_singleton.mpr rfl
    have hkept : (0 : Fin 2) ∉ (rowScatterDims N R C wf).sKept := by
      show (0 : Fin 2) ∉ [(1 : Fin 2)]
      exact fun h => h10 (List.mem_singleton.mp h).symm
    show (rowScatterDims N R C wf).start j idx 0 + (rowScatterDims N R C wf).window j 0 = _
    unfold ScatterDims.start ScatterDims.window
    rw [dif_pos hmap, dif_neg hkept]
    have hsi : (rowScatterDims N R C wf).siIdx j ⟨List.idxOf (0 : Fin 2) (rowScatterDims N R C wf).scatterDimsToOperandDims,
        List.idxOf_lt_length_iff.2 hmap⟩ = ValueIdx.ix2 (j 0) (0 : Fin 1) := by
      funext b; refine Fin.ext ?_
      match b with
      | ⟨0, _⟩ => rfl
      | ⟨1, _⟩ => rfl
    rw [hsi]
    simp only [Nat.cast_zero, Int.add_zero]
    rfl
  | ⟨1, _⟩ =>
    have hmap : (1 : Fin 2) ∉ (rowScatterDims N R C wf).scatterDimsToOperandDims := fun h => h10 (List.mem_singleton.mp h)
    have hkept : (1 : Fin 2) ∈ (rowScatterDims N R C wf).sKept := by
      show (1 : Fin 2) ∈ [(1 : Fin 2)]
      exact List.mem_singleton.mpr rfl
    show (rowScatterDims N R C wf).start j idx 1 + (rowScatterDims N R C wf).window j 1 = _
    unfold ScatterDims.start ScatterDims.window
    rw [dif_neg hmap, dif_pos hkept]
    simp only [Int.zero_add]
    rfl

/-- Two scatters into operands of one shape whose signed landing coordinates agree on every axis land at the same
    place, or both drop the update. -/
theorem resultIdx?_congr {s si u si' u' : Shape} {w : Nat} (d : ScatterDims s si u) (d' : ScatterDims s si' u')
    (j : u.Idx) (idx : IVec si w) (j' : u'.Idx) (idx' : IVec si' w)
    (h : ∀ a, d.start j idx a + d.window j a = d'.start j' idx' a + d'.window j' a) :
    d.resultIdx? j idx = d'.resultIdx? j' idx' := by
  unfold ScatterDims.resultIdx?
  by_cases hc : ∀ a, 0 ≤ d.start j idx a + d.window j a ∧ d.start j idx a + d.window j a < s.size a
  · have hc' : ∀ a, 0 ≤ d'.start j' idx' a + d'.window j' a ∧ d'.start j' idx' a + d'.window j' a < s.size a :=
      fun a => by rw [← h a]; exact hc a
    rw [dif_pos hc, dif_pos hc']
    congr 1
    funext a
    refine Fin.ext ?_
    show (d.start j idx a + d.window j a).toNat = (d'.start j' idx' a + d'.window j' a).toNat
    rw [h a]
  · have hc' : ¬∀ a, 0 ≤ d'.start j' idx' a + d'.window j' a ∧ d'.start j' idx' a + d'.window j' a < s.size a :=
      fun hc' => hc fun a => by rw [h a]; exact hc' a
    rw [dif_neg hc, dif_neg hc']

/-- Two row-scatters into the same operand shape, with different numbers of update rows, land an update entry at the
    same place (or both drop it) at update entries with equal column, when the index words of the two rows are equal. -/
theorem rowScatter_agree {N R R' C w : Nat}
    (wf : ScatterDims.WF ⟨2, ![N, C]⟩ ⟨2, ![R, 1]⟩ ⟨2, ![R, C]⟩ [1] [0] [0] 1)
    (wf' : ScatterDims.WF ⟨2, ![N, C]⟩ ⟨2, ![R', 1]⟩ ⟨2, ![R', C]⟩ [1] [0] [0] 1)
    (idx : IVec ⟨2, ![R, 1]⟩ w) (idx' : IVec ⟨2, ![R', 1]⟩ w)
    (j : (⟨2, ![R, C]⟩ : Shape).Idx) (j' : (⟨2, ![R', C]⟩ : Shape).Idx) (h1 : (j 1).val = (j' 1).val)
    (hidx : idx (ValueIdx.ix2 (j 0) (0 : Fin 1)) = idx' (ValueIdx.ix2 (j' 0) (0 : Fin 1))) :
    (rowScatterDims N R C wf).resultIdx? j idx = (rowScatterDims N R' C wf').resultIdx? j' idx' :=
  resultIdx?_congr _ _ j idx j' idx' fun a => by
    rw [rowScatter_landing, rowScatter_landing, hidx, h1]

/-! ## The two gathers and the two scatters of this certificate -/

/-- The padded and the unpadded row-gather read the same operand entry at result entries with equal coordinates,
    when the two start-index tables hold the same word for that row. -/
theorem gather_rows_agree {α : Type} (x : Cert.KernelIdeal.S100000x128.Idx → α)
    (idxK : IVec Cert.KernelIdeal.S1703936x1 32) (idxR : IVec Cert.ReferenceIdeal.S1700000x1 32)
    (jK : Cert.KernelIdeal.S1703936x128.Idx) (jR : Cert.ReferenceIdeal.S1700000x128.Idx)
    (h0 : (jK 0).val = (jR 0).val) (h1 : (jK 1).val = (jR 1).val)
    (hidx : idxK (ValueIdx.ix2 (jK 0) (0 : Fin 1)) = idxR (ValueIdx.ix2 (jR 0) (0 : Fin 1))) :
    Host.gather Cert.KernelIdeal.gather_S100000x128_S1703936x1_S1703936x128_1_0_n_n_0_1_1128 x idxK jK
      = Host.gather Cert.ReferenceIdeal.gather_S100000x128_S1700000x1_S1700000x128_1_0_n_n_0_1_1128 x idxR jR :=
  rowGather_agree (N := 100000) (R := 1703936) (R' := 1700000) (C := 128)
    Cert.KernelIdeal.gather_S100000x128_S1703936x1_S1703936x128_1_0_n_n_0_1_1128.wf
    Cert.ReferenceIdeal.gather_S100000x128_S1700000x1_S1700000x128_1_0_n_n_0_1_1128.wf x idxK idxR jK jR h1 hidx

/-- The padded and the unpadded row-scatter land an update entry at the same place (or both drop it), at update
    entries with equal coordinates, when the two index tables hold the same word for that row. -/
theorem scatter_rows_agree
    (idxK : IVec Cert.KernelIdeal.S1703936x1 32) (idxR : IVec Cert.ReferenceIdeal.S1700000x1 32)
    (jK : Cert.KernelIdeal.S1703936x128.Idx) (jR : Cert.ReferenceIdeal.S1700000x128.Idx)
    (h0 : (jK 0).val = (jR 0).val) (h1 : (jK 1).val = (jR 1).val)
    (hidx : idxK (ValueIdx.ix2 (jK 0) (0 : Fin 1)) = idxR (ValueIdx.ix2 (jR 0) (0 : Fin 1))) :
    Cert.KernelIdeal.scatter_S100000x128_S1703936x1_S1703936x128_1_0_0_1.resultIdx? jK idxK
      = Cert.ReferenceIdeal.scatter_S100000x128_S1700000x1_S1700000x128_1_0_0_1.resultIdx? jR idxR :=
  rowScatter_agree (N := 100000) (R := 1703936) (R' := 1700000) (C := 128)
    Cert.KernelIdeal.scatter_S100000x128_S1703936x1_S1703936x128_1_0_0_1.wf
    Cert.ReferenceIdeal.scatter_S100000x128_S1700000x1_S1700000x128_1_0_0_1.wf idxK idxR jK jR h1 hidx

end Cert.Spec

end
-- ==== Proof.Hop.lean ====
/-
  One hop of the kernel equals one hop of the reference, on the extended reals.
-/
import proofs.«164959_j34892314312745_1_alg».proof.Proof.Spec
import proofs.«164959_j34892314312745_1_alg».proof.Proof.IndexMaps
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic

/-! ## Two accumulating scatters, one's updates embedded in the other's -/

/-- Two accumulating scatters into the same operand agree when the second's update indices embed into the
    first's so that an embedded update lands at the same place with the same value, and every update of the first
    outside the embedding is zero. -/
theorem scatterAdd_embed {s si su si' su' : Shape} {w : Nat}
    (d : ScatterDims s si su) (d' : ScatterDims s si' su')
    (x : s.Idx → EReal) (idx : IVec si w) (idx' : IVec si' w)
    (upd : su.Idx → EReal) (upd' : su'.Idx → EReal)
    (ι : su'.Idx → su.Idx) (hι : Function.Injective ι)
    (hland : ∀ j, d.resultIdx? (ι j) idx = d'.resultIdx? j idx')
    (hval : ∀ j, upd (ι j) = upd' j)
    (hrest : ∀ k, (∃ j, ι j = k) ∨ upd k = 0) :
    Ideal.hostScatterAdd d x idx upd = Ideal.hostScatterAdd d' x idx' upd' := by
  funext i
  unfold Ideal.hostScatterAdd
  congr 1
  symm
  refine Finset.sum_bij_ne_zero (fun j _ _ => ι j) ?_ ?_ ?_ ?_
  · intro j hj _
    rw [Finset.mem_filter] at hj ⊢
    exact ⟨Finset.mem_univ _, (hland j).trans hj.2⟩
  · intro j₁ _ _ j₂ _ _ h
    exact hι h
  · intro k hk hk0
    rcases hrest k with ⟨j, rfl⟩ | h0
    · rw [Finset.mem_filter] at hk
      refine ⟨j, ?_, ?_, rfl⟩
      · rw [Finset.mem_filter]
        exact ⟨Finset.mem_univ _, (hland j).symm.trans hk.2⟩
      · rw [← hval j]; exact hk0
    · exact absurd h0 hk0
  · intro j _ _
    exact (hval j).symm

open Idealize.ShloMosaic.ValueIdx

/-! ## The tables read at a row -/

/-- The padded table broadcast to one column reads, at row `a`, the table's entry `a`. -/
theorem colK_apply {α : Type} (T : Cert.KernelIdeal.S1703936.Idx → α)
    (hb : Cert.KernelIdeal.S1703936.BroadcastsInDim Cert.KernelIdeal.S1703936x1 ![0]) (a : Fin 1703936) :
    broadcastInDim Cert.KernelIdeal.S1703936x1 ![0] hb T (ix2 a (0 : Fin 1)) = T (ix1 a) :=
  broadcastInDim_apply _ hb T _ (ix1 a) (fun b => match b with
    | ⟨0, _⟩ => by show a.val = if (1703936 : Nat) = 1 then 0 else a.val; rw [if_neg (by decide)])

/-- The unpadded table broadcast to one column reads, at row `r`, the table's entry `r`. -/
theorem colR_apply {α : Type} (T : Cert.ReferenceIdeal.S1700000.Idx → α)
    (hb : Cert.ReferenceIdeal.S1700000.BroadcastsInDim Cert.ReferenceIdeal.S1700000x1 ![0]) (r : Fin 1700000) :
    broadcastInDim Cert.ReferenceIdeal.S1700000x1 ![0] hb T (ix2 r (0 : Fin 1)) = T (ix1 r) :=
  broadcastInDim_apply _ hb T _ (ix1 r) (fun b => match b with
    | ⟨0, _⟩ => by show r.val = if (1700000 : Nat) = 1 then 0 else r.val; rw [if_neg (by decide)])

/-- Below row 1,700,000 the padded index table is the table. -/
theorem padI_left (T : IVec Cert.KernelIdeal.S1700000 32) (r : Fin 1700000) (h : 1700000 ≤ 1703936) :
    padI T (ix1 (r.castLE h)) = T (ix1 r) := by
  unfold padI
  exact concatenate_pair_apply_left 0 _ _ _ _ (by rfl) (ix1 r) (fun b => match b with | ⟨0, _⟩ => rfl)

/-- Below row 1,700,000 the padded weights are the weights. -/
theorem padF_left {F : FTy → Type} [FloatOps F] (T : FVec F Cert.KernelIdeal.S1700000 .f32) (r : Fin 1700000) (h : 1700000 ≤ 1703936) :
    padF T (ix1 (r.castLE h)) = T (ix1 r) := by
  unfold padF
  exact concatenate_pair_apply_left 0 _ _ _ _ (by rfl) (ix1 r) (fun b => match b with | ⟨0, _⟩ => rfl)

/-- From row 1,700,000 on the padded weights are zero. -/
theorem padF_right (T : FVec Ideal Cert.KernelIdeal.S1700000 .f32) (a : Fin 1703936) (h : 1700000 ≤ a.val) :
    padF T (ix1 a) = 0 := by
  unfold padF
  have ha : a.val - 1700000 < 3936 := by have := a.isLt; omega
  refine (concatenate_pair_apply_right 0 _ _ _ (ix1 a) (by rfl) (by rfl) (ix1 (⟨a.val - 1700000, ha⟩ : Fin 3936))
    ?_ ?_).trans ?_
  · intro b hb
    exact absurd (Fin.ext (by have hb1 : b.val < 1 := b.isLt; show b.val = 0; omega)) hb
  · show (a.val - 1700000) + 1700000 = a.val
    omega
  · show Ideal.ofBits .f32 0x00000000#32 = 0
    exact Ideal.ofBits_zero_f32

/-- The padded weights cast to one column read, at row `a`, the padded weights' entry `a`. -/
theorem wcolK_apply {α : Type} (T : Cert.KernelIdeal.S1703936.Idx → α)
    (hc : Cert.KernelIdeal.S1703936.ShapeCasts Cert.KernelIdeal.S1703936x1) (a : Fin 1703936) :
    shapeCast Cert.KernelIdeal.S1703936x1 T hc (ix2 a (0 : Fin 1)) = T (ix1 a) :=
  shapeCast_apply T hc _ (ix1 a)
    (by rw [Shape.rowMajor_val_one, Shape.rowMajor_val_two]; show a.val = a.val * 1 + 0; omega)

/-- The weights broadcast to one column and then along the rows read, at `(r, c)`, the weights' entry `r`. -/
theorem wbcR_apply {α : Type} (T : Cert.ReferenceIdeal.S1700000.Idx → α)
    (hb1 : Cert.ReferenceIdeal.S1700000.BroadcastsInDim Cert.ReferenceIdeal.S1700000x1 ![0])
    (hb2 : Cert.ReferenceIdeal.S1700000x1.BroadcastsInDim Cert.ReferenceIdeal.S1700000x128 ![0, 1])
    (r : Fin 1700000) (c : Fin 128) :
    broadcastInDim Cert.ReferenceIdeal.S1700000x128 ![0, 1] hb2
      (broadcastInDim Cert.ReferenceIdeal.S1700000x1 ![0] hb1 T) (ix2 r c) = T (ix1 r) := by
  refine (broadcastInDim_apply _ hb2 _ (ix2 r c) (ix2 r (0 : Fin 1)) (fun b => match b with
    | ⟨0, _⟩ => by show r.val = if (1700000 : Nat) = 1 then 0 else r.val; rw [if_neg (by decide)]
    | ⟨1, _⟩ => by show 0 = if (1 : Nat) = 1 then 0 else c.val; rw [if_pos rfl])).trans ?_
  exact colR_apply T hb1 r

/-- The shift of negative entries acts entry by entry: where the two tables hold the same word, so do the shifted tables. -/
theorem wrap_agree (P : IVec Cert.KernelIdeal.S1703936 32) (S : IVec Cert.ReferenceIdeal.S1700000 32)
    (i : Cert.KernelIdeal.S1703936.Idx) (i' : Cert.ReferenceIdeal.S1700000.Idx) (h : P i = S i') :
    wrapK P i = wrapR S i' := by
  show Scalar.select (IntOp.cmpi .slt (P i) 0#32) (IntOp.addi (P i) 100000#32) (P i)
     = Scalar.select (IntOp.cmpi .slt (S i') 0#32) (IntOp.addi (S i') 100000#32) (S i')
  rw [h]

/-! ## The embedding of the reference's update indices into the kernel's -/

/-- An update index of the reference as an update index of the kernel: the same two coordinates. -/
def embedIdx (j : Cert.ReferenceIdeal.S1700000x128.Idx) : Cert.KernelIdeal.S1703936x128.Idx :=
  ix2 (Fin.castLE (show 1700000 ≤ 1703936 by decide) (j 0)) (j 1)

theorem embedIdx_injective : Function.Injective embedIdx := by
  intro j₁ j₂ h
  funext a
  match a with
  | ⟨0, _⟩ =>
    have h0 : embedIdx j₁ 0 = embedIdx j₂ 0 := congrFun h 0
    have hv : (embedIdx j₁ 0).val = (embedIdx j₂ 0).val := congrArg Fin.val h0
    exact Fin.ext hv
  | ⟨1, _⟩ => exact congrFun h 1

/-- A kernel update index whose row is below 1,700,000 is the embedding of a reference update index. -/
theorem embedIdx_surj_below (k : Cert.KernelIdeal.S1703936x128.Idx) (hk : (k 0).val < 1700000) :
    ∃ j, embedIdx j = k :=
  ⟨ix2 (⟨(k 0).val, hk⟩ : Fin 1700000) (k 1), by
    funext a
    match a with
    | ⟨0, _⟩ => rfl
    | ⟨1, _⟩ => rfl⟩

/-! ## One hop -/

/-- The padded hop is the unpadded hop: the 3,936 extra rows carry weight zero, so each adds `x · 0 = 0` (true of
    every extended real `x`) to row 0 of the sum; on the first 1,700,000 rows the padded tables are the tables. -/
theorem hop_eq (S D : IVec Cert.KernelIdeal.S1700000 32) (Nm : FVec Ideal Cert.KernelIdeal.S1700000 .f32)
    (h : FVec Ideal Cert.KernelIdeal.S100000x128 .f32) :
    hopK (F := Ideal) S D Nm h = hopR (F := Ideal) S D Nm h := by
  have hle : 1700000 ≤ 1703936 := by decide
  unfold hopK hopR Host.scatterAdd
  rw [Ideal.hostScatterAdd_def, Ideal.hostScatterAdd_def]
  refine scatterAdd_embed _ _ _ _ _ _ _ embedIdx embedIdx_injective ?_ ?_ ?_
  · -- an embedded update lands where the reference's lands: the destination tables agree below row 1,700,000
    intro j
    obtain ⟨r, c, rfl⟩ : ∃ (r : Fin 1700000) (c : Fin 128), j = ix2 r c := ⟨j 0, j 1, eq_ix2 j⟩
    refine scatter_rows_agree _ _ _ _ rfl rfl ?_
    show broadcastInDim _ _ _ (padI D) (ix2 (Fin.castLE hle r) (0 : Fin 1)) = broadcastInDim _ _ _ D (ix2 r (0 : Fin 1))
    rw [colK_apply, colR_apply, padI_left]
  · -- an embedded update has the reference's value: the same row of `h` times the same weight
    intro j
    obtain ⟨r, c, rfl⟩ : ∃ (r : Fin 1700000) (c : Fin 128), j = ix2 r c := ⟨j 0, j 1, eq_ix2 j⟩
    show FloatOps.mulf (Host.gather _ h _ (embedIdx (ix2 r c))) (shapeCast _ (padF Nm) _ (ix2 (Fin.castLE hle r) (0 : Fin 1)))
       = FloatOps.mulf (Host.gather _ h _ (ix2 r c)) (broadcastInDim _ _ _ (broadcastInDim _ _ _ Nm) (ix2 r c))
    rw [wcolK_apply, padF_left, wbcR_apply]
    refine congrArg (fun x => FloatOps.mulf x (Nm (ix1 r))) ?_
    refine gather_rows_agree h _ _ _ _ rfl rfl ?_
    show broadcastInDim _ _ _ (wrapK (padI S)) (ix2 (Fin.castLE hle r) (0 : Fin 1)) = broadcastInDim _ _ _ (wrapR S) (ix2 r (0 : Fin 1))
    rw [colK_apply, colR_apply]
    exact wrap_agree _ _ _ _ (padI_left S r hle)
  · -- every other update of the kernel is a row of `h` times a padding weight, which is zero
    intro k
    obtain ⟨a, c, rfl⟩ : ∃ (a : Fin 1703936) (c : Fin 128), k = ix2 a c := ⟨k 0, k 1, eq_ix2 k⟩
    by_cases hk : a.val < 1700000
    · exact Or.inl (embedIdx_surj_below (ix2 a c) hk)
    · right
      show FloatOps.mulf _ (shapeCast Cert.KernelIdeal.S1703936x1 (padF Nm) _ (ix2 a (0 : Fin 1))) = 0
      rw [wcolK_apply, padF_right Nm a (by omega)]
      exact mul_zero _

end Cert.Spec

end
-- ==== Proof.KEntry.lean ====
/-
  The buffers the first row-scaling region finds at entry, as functions of the tables the earlier host operations
  left: the source and destination tables padded with zeros, the weight column (the product of the two gathered
  inverse-root degrees, padded with zeros, as a column), and the rows of the node features gathered at the padded,
  shifted sources.
-/
import proofs.«164959_j34892314312745_1_alg».proof.Proof.Gen.KernelIdeal.Frame
import proofs.«164959_j34892314312745_1_alg».proof.Proof.Spec
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable {F : FTy → Type} [FloatOps F]

/-- The edge weights from the three tables the earlier host operations left: the inverse-root degree `dinv` read at
    the (shifted) source and at the (shifted) destination of each edge, multiplied. -/
def weightOf (S D : IVec S1700000 32) (dinv : FVec F S100000 .f32) : FVec F S1700000 .f32 :=
  mulf
    (Host.gather gather_S100000_S1700000x1_S1700000_n_0_n_n_0_1_1 dinv
      (broadcastInDim S1700000x1 ![0] Facts₀.bcast_S1700000_S1700000x1_0
        (select (cmpi .slt S (broadcastInDim S1700000 ![] Facts₀.bcast_S_S1700000 (constantI S_ 32 0#32)))
          (addi S (broadcastInDim S1700000 ![] Facts₀.bcast_S_S1700000 (constantI S_ 32 100000#32))) S)))
    (Host.gather gather_S100000_S1700000x1_S1700000_n_0_n_n_0_1_1 dinv
      (broadcastInDim S1700000x1 ![0] Facts₀.bcast_S1700000_S1700000x1_0
        (select (cmpi .slt D (broadcastInDim S1700000 ![] Facts₀.bcast_S_S1700000 (constantI S_ 32 0#32)))
          (addi D (broadcastInDim S1700000 ![] Facts₀.bcast_S_S1700000 (constantI S_ 32 100000#32))) D)))

variable (m : (ℓ : Loc nD τ sig) → Buf (Elt F) ℓ) (ρ : Dev nD → PrngReg)

set_option maxHeartbeats 8000000 in
/-- The padded source table. -/
theorem entry_sources (c : Dev nD) :
    W3 m ρ c (Proc.devRef .tc main_v31) = Cert.Spec.padI (W2 m ρ c (Proc.devRef .tc main_v3)) := by
  show StableHlo.after hostOps0_2 (W2 m ρ c) (Proc.devRef .tc main_v31) = _
  generalize W2 m ρ c = V0
  after_results
  rfl

set_option maxHeartbeats 8000000 in
/-- The padded destination table. -/
theorem entry_destinations (c : Dev nD) :
    W3 m ρ c (Proc.devRef .tc main_v33) = Cert.Spec.padI (W2 m ρ c (Proc.devRef .tc main_v6)) := by
  show StableHlo.after hostOps0_2 (W2 m ρ c) (Proc.devRef .tc main_v33) = _
  generalize W2 m ρ c = V0
  after_results
  rfl

set_option maxHeartbeats 8000000 in
/-- The weight column. -/
theorem entry_weights (c : Dev nD) :
    W3 m ρ c (Proc.devRef .tc main_v36)
      = shapeCast S1703936x1
          (Cert.Spec.padF (weightOf (W2 m ρ c (Proc.devRef .tc main_v3)) (W2 m ρ c (Proc.devRef .tc main_v6))
            (W2 m ρ c (Proc.devRef .tc main_v14))))
          Facts₀.shapeCasts_S1703936_S1703936x1 := by
  show StableHlo.after hostOps0_2 (W2 m ρ c) (Proc.devRef .tc main_v36) = _
  generalize W2 m ρ c = V0
  after_results
  rfl

set_option maxHeartbeats 8000000 in
/-- The gathered rows of the node features. -/
theorem entry_rows (c : Dev nD) :
    W3 m ρ c (Proc.devRef .tc main_v43)
      = Host.gather gather_S100000x128_S1703936x1_S1703936x128_1_0_n_n_0_1_1128 (W2 m ρ c (Proc.devRef .tc main_arg0))
          (broadcastInDim S1703936x1 ![0] Facts₀.bcast_S1703936_S1703936x1_0
            (Cert.Spec.wrapK (Cert.Spec.padI (W2 m ρ c (Proc.devRef .tc main_v3))))) := by
  show StableHlo.after hostOps0_2 (W2 m ρ c) (Proc.devRef .tc main_v43) = _
  generalize W2 m ρ c = V0
  after_results
  rfl

end Cert.KernelIdeal.Chain

end
-- ==== Proof.KTables.lean ====
/-
  The tables the first host operations leave, named as the reference's own stages: both programs build the source
  table, the destination table and the inverse-root degrees from the edge list by the same operations, so the
  kernel's buffers hold the reference's staged values of the same argument.
-/
import proofs.«164959_j34892314312745_1_alg».proof.Proof.Gen.KernelIdeal.Frame
import proofs.«164959_j34892314312745_1_alg».proof.Proof.RefRead
import proofs.«164959_j34892314312745_1_alg».proof.Proof.KEntry
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.ReadP

/-- A buffer that no operation of a host stretch writes holds after the stretch what it held before. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg)

/-! ## After the first stretch -/

set_option maxHeartbeats 8000000 in
/-- The source table: the edge list's first row followed by the node numbers. -/
theorem sources_first (c : Dev nD) :
    W1 m ρ c (Proc.devRef .tc main_v3) = val_main_v3 (F := F) (m ((c : Thread nD τ).loc main_arg1)) := by
  show StableHlo.after hostOps0 (W0 m ρ c) (Proc.devRef .tc main_v3) = _
  after_results
  unfold val_main_v3 val_main_v2 val_main_v1 val_main_v0
  rfl

set_option maxHeartbeats 8000000 in
/-- The destination table: the edge list's second row followed by the node numbers. -/
theorem destinations_first (c : Dev nD) :
    W1 m ρ c (Proc.devRef .tc main_v6) = val_main_v6 (F := F) (m ((c : Thread nD τ).loc main_arg1)) := by
  show StableHlo.after hostOps0 (W0 m ρ c) (Proc.devRef .tc main_v6) = _
  after_results
  unfold val_main_v6 val_main_v5 val_main_v4 val_main_v0
  rfl

set_option maxHeartbeats 8000000 in
/-- Which nodes have positive degree. -/
theorem positive_first (c : Dev nD) :
    W1 m ρ c (Proc.devRef .tc main_v12) = val_main_v12 (F := F) (m ((c : Thread nD τ).loc main_arg1)) := by
  show StableHlo.after hostOps0 (W0 m ρ c) (Proc.devRef .tc main_v12) = _
  after_results
  unfold val_main_v12 val_main_v11 val_main_cst_1 val_main_v10 val_main_v9 val_main_v8 val_main_cst_0 val_main_v7 val_main_cst
    val_main_v6 val_main_v5 val_main_v4 val_main_v0
  rfl

set_option maxHeartbeats 8000000 in
/-- The inverse roots of the degrees. -/
theorem rsqrt_first (c : Dev nD) :
    W1 m ρ c (Proc.devRef .tc main_v13) = val_main_v13 (F := F) (m ((c : Thread nD τ).loc main_arg1)) := by
  show StableHlo.after hostOps0 (W0 m ρ c) (Proc.devRef .tc main_v13) = _
  after_results
  unfold val_main_v13 val_main_v10 val_main_v9 val_main_v8 val_main_cst_0 val_main_v7 val_main_cst
    val_main_v6 val_main_v5 val_main_v4 val_main_v0
  rfl

set_option maxHeartbeats 8000000 in
/-- The zero that replaces the inverse root of a zero degree. -/
theorem zero_first (c : Dev nD) :
    W1 m ρ c (Proc.devRef .tc main_cst_2) = val_main_cst_2 (F := F) := by
  show StableHlo.after hostOps0 (W0 m ρ c) (Proc.devRef .tc main_cst_2) = _
  after_results
  rfl

/-! ## After the second stretch (the selection of the inverse roots) -/

theorem table_sources (c : Dev nD) :
    W2 m ρ c (Proc.devRef .tc main_v3) = val_main_v3 (F := F) (m ((c : Thread nD τ).loc main_arg1)) := by
  have h : W2 m ρ c (Proc.devRef .tc main_v3) = W1 m ρ c (Proc.devRef .tc main_v3) := by
    show StableHlo.after hostOps0_1 (W1 m ρ c) (Proc.devRef .tc main_v3) = _
    host_keeps hostOps0_1
  exact h.trans (sources_first m ρ c)

theorem table_destinations (c : Dev nD) :
    W2 m ρ c (Proc.devRef .tc main_v6) = val_main_v6 (F := F) (m ((c : Thread nD τ).loc main_arg1)) := by
  have h : W2 m ρ c (Proc.devRef .tc main_v6) = W1 m ρ c (Proc.devRef .tc main_v6) := by
    show StableHlo.after hostOps0_1 (W1 m ρ c) (Proc.devRef .tc main_v6) = _
    host_keeps hostOps0_1
  exact h.trans (destinations_first m ρ c)

set_option maxHeartbeats 8000000 in
/-- The inverse-root degrees, zero where the degree is not positive. -/
theorem table_dinv (c : Dev nD) :
    W2 m ρ c (Proc.devRef .tc main_v14) = val_main_v14 (F := F) (m ((c : Thread nD τ).loc main_arg1)) := by
  have h : W2 m ρ c (Proc.devRef .tc main_v14)
      = select (W1 m ρ c (Proc.devRef .tc main_v12)) (W1 m ρ c (Proc.devRef .tc main_v13))
          (broadcastInDim S100000 ![] Facts₀.bcast_S_S100000 (id (W1 m ρ c (Proc.devRef .tc main_cst_2)))) := by
    show StableHlo.after hostOps0_1 (W1 m ρ c) (Proc.devRef .tc main_v14) = _
    generalize W1 m ρ c = V0
    after_results
    rfl
  rw [h, positive_first, rsqrt_first, zero_first]
  unfold val_main_v14 val_main_call0_v1 val_main_call0_v0
  rfl

/-- The kernel's edge weights are the reference's staged weights. -/
theorem weights_eq (x1 : (⟨Cert.ReferenceIdeal.S2x1600000, .i32⟩ : BufTy).Contents (Elt F)) :
    weightOf (F := F) (val_main_v3 (F := F) x1) (val_main_v6 (F := F) x1) (val_main_v14 (F := F) x1)
      = val_main_v29 (F := F) x1 := by
  unfold weightOf val_main_v29 val_main_v28 val_main_v27 val_main_v26 val_main_v25 val_main_v24 val_main_c_5 val_main_v23
    val_main_v22 val_main_c_4 val_main_v21 val_main_v20 val_main_v19 val_main_v18 val_main_v17 val_main_c_3 val_main_v16
    val_main_v15 val_main_c
  rfl

end Cert.KernelIdeal.Chain

end
-- ==== Proof.KScale.lean ====
/-
  What each of the two row-scaling regions leaves in its output array: one whole-array function of the two arrays
  the region finds at entry (the gathered rows and the weight column).

  Both regions run the same body over 208 grid points. Point t reads rows 8192·t … 8192·t + 8191 of the gathered
  rows and of the weight column, multiplies every entry (p, q) of the first block by entry (p, 0) of the second,
  and writes the product back to the same rows of the output. The 208 blocks tile the 1,703,936 rows, so the output
  array ends holding, at every (r, q), the gathered entry (r, q) times the weight of row r.
-/
import proofs.«164959_j34892314312745_1_alg».proof.Proof.Gen.KernelIdeal.Frame
import proofs.«164959_j34892314312745_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

namespace Scale

/-! ## What the two regions share -/

/-- The offsets of an access to a whole block are zero on both axes. -/
theorem whole_block_offsets : (![0, 0] : Fin 2 → Nat) = fun _ => 0 := funext fun a => by fin_cases a <;> rfl

/-- A column of 8192 entries broadcast along 128 lanes reads, at (p, q), the column's entry (p, 0). -/
theorem column_broadcast_apply {α : Type} (v : S8192x1.Idx → α) (h : S8192x1.Broadcasts S8192x128) (p : Fin 8192) (q : Fin 128) :
    broadcastTo S8192x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## Region 0 -/

/-- The body's stored value at entry (p, q) of a block: the gathered block's entry (p, q) times the weight
    block's entry (p, 0). The two casts to the same shape change nothing. -/
theorem scale_block0_apply (x0 : Vec Ideal S8192x128 .f32) (x1 : Vec Ideal S8192x1 .f32) (p : Fin 8192) (q : Fin 128) :
    k0_pay1 (F := Ideal) x0 x1 (ix2 p q) = FloatOps.mulf (x0 (ix2 p q)) (x1 (ix2 p (0 : Fin 1))) := by
  unfold k0_pay1
  show FloatOps.mulf _ _ = _
  rw [shapeCast_self, shapeCast_self, shapeCast_self, column_broadcast_apply]

/-- The three index maps over the 208 grid points: point t has block index (t, 0) in every window. -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The gathered rows' block at point t is rows 8192·t … 8192·t + 8191 of the array: its entry y is the array's
    entry k whenever k's row is 8192·t + y's row and the columns agree. -/
theorem rows_block0_apply (c : Dev nD) (t : Fin cfg0.N) (y : S8192x128.Idx) (k : S1703936x128.Idx)
    (h0 : (k 0).val = t.val * 8192 + (y 0).val) (h1 : (k 1).val = (y 1).val) :
    (iblk0 V c 0 t : Vec Ideal S8192x128 .f32) y = (V c main_v43 : S1703936x128.Idx → Elt Ideal .f32) k := by
  obtain ⟨e00, e01, -, -, -, -⟩ := index_maps0 t
  unfold iblk0
  rw [View.read_apply]
  show V c main_v43 _ = V c main_v43 _
  congr 1
  funext a
  apply Fin.ext
  match a with
  | ⟨0, _⟩ => show win0_0.index t (0 : Fin 2) * 8192 + 1 * (y 0).val = (k 0).val; rw [e00, h0]; omega
  | ⟨1, _⟩ => show win0_0.index t (1 : Fin 2) * 128 + 1 * (y 1).val = (k 1).val; rw [e01, h1]; omega

/-- The weight column's block at point t is rows 8192·t … 8192·t + 8191 of the column, likewise. -/
theorem column_block0_apply (c : Dev nD) (t : Fin cfg0.N) (y : S8192x1.Idx) (k : S1703936x1.Idx)
    (h0 : (k 0).val = t.val * 8192 + (y 0).val) (h1 : (k 1).val = (y 1).val) :
    (iblk0 V c 1 t : Vec Ideal S8192x1 .f32) y = (V c main_v36 : S1703936x1.Idx → Elt Ideal .f32) k := by
  obtain ⟨-, -, e10, e11, -, -⟩ := index_maps0 t
  unfold iblk0
  rw [View.read_apply]
  show V c main_v36 _ = V c main_v36 _
  congr 1
  funext a
  apply Fin.ext
  match a with
  | ⟨0, _⟩ => show win0_1.index t (0 : Fin 2) * 8192 + 1 * (y 0).val = (k 0).val; rw [e10, h0]; omega
  | ⟨1, _⟩ => show win0_1.index t (1 : Fin 2) * 1 + 1 * (y 1).val = (k 1).val; rw [e11, h1]; omega

/-- What point t writes back is block t of the row-scaled array: entry (p, q) of the block sits at row
    8192·t + p, column q of the array, where the scaled array holds the gathered entry times the weight of row
    8192·t + p, which is what the body computed from its two input blocks. -/
theorem flushed0_eq (c : Dev nD) (t : Fin cfg0.N) :
    (dat0 (F := Ideal) V c).flushed 2 t
      = ((cfg0.win 2).blk t).view.read (Elt Ideal) (Cert.Spec.scaleRows (F := Ideal) (V c main_v43) (V c main_v36)) := by
  show (cfg0.win 2).cut (grid0.coords t) ((dat0 V c).after 2 t) = _
  rw [after0_2]
  unfold out0_2
  rw [View.canon_unit_zero whole_block_offsets]
  simp only [View.ld_unit_zero (S := S8192x128) whole_block_offsets, View.ld_unit_zero (S := S8192x1) whole_block_offsets]
  obtain ⟨-, -, -, -, e20, e21⟩ := index_maps0 t
  funext j
  obtain ⟨p, q, rfl⟩ : ∃ (p : Fin 8192) (q : Fin 128), j = ix2 p q := ⟨j 0, j 1, eq_ix2 j⟩
  rw [View.read_apply]
  show k0_pay1 (F := Ideal) (iblk0 V c 0 t) (iblk0 V c 1 t) (ix2 p q)
    = FloatOps.mulf ((V c main_v43 : S1703936x128.Idx → Elt Ideal .f32) (((cfg0.win 2).blk t).view.emb (ix2 p q)))
        ((V c main_v36 : S1703936x1.Idx → Elt Ideal .f32) (ix2 ((((cfg0.win 2).blk t).view.emb (ix2 p q)) 0) (0 : Fin 1)))
  have hk0 : ((((cfg0.win 2).blk t).view.emb (ix2 p q)) 0).val = t.val * 8192 + p.val := by
    show win0_2.index t (0 : Fin 2) * 8192 + 1 * p.val = _
    rw [e20]; omega
  have hk1 : ((((cfg0.win 2).blk t).view.emb (ix2 p q)) 1).val = q.val := by
    show win0_2.index t (1 : Fin 2) * 128 + 1 * q.val = _
    rw [e21]; omega
  refine (scale_block0_apply _ _ p q).trans ?_
  exact congrArg₂ (FloatOps.mulf (F := Ideal) (φ := .f32))
    (rows_block0_apply V c t (ix2 p q) _ hk0 hk1)
    (column_block0_apply V c t (ix2 p (0 : Fin 1)) _ hk0 rfl)

/-- An entry of the output array is in point t's block iff, on each axis, its coordinate lies in the block's range. -/
theorem mem_block0 (t : Fin cfg0.N) (i : S1703936x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v44).slice (win0_2.rect t)).set ↔ _
  rw [View.set_slice_whole, Rect.mem_set_unit]
  exact Iff.rfl

/-- The 208 blocks of 8192 rows tile the 1,703,936 rows: entry (r, q) is in the block of point r / 8192. -/
theorem covered0 (i : S1703936x128.Idx) :
    ∃ t : Fin cfg0.N, (cfg0.win 2).flush t = true ∧ i ∈ ((cfg0.win 2).blk t).view.set := by
  have hi0 : (i 0).val < 1703936 := (i 0).isLt
  have hi1 : (i 1).val < 128 := (i 1).isLt
  have hN : grid0.N = 208 := N_0
  have ht : (i 0).val / 8192 < cfg0.N := by show _ < grid0.N; rw [hN]; omega
  obtain ⟨-, -, -, -, e20, e21⟩ := index_maps0 ⟨(i 0).val / 8192, ht⟩
  refine ⟨⟨(i 0).val / 8192, ht⟩, flush0_2 _, ?_⟩
  rw [mem_block0]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [e20]
    show (i 0).val / 8192 * 8192 ≤ (i 0).val ∧ (i 0).val < (i 0).val / 8192 * 8192 + 8192
    omega
  | ⟨1, _⟩ =>
    show win0_2.index ⟨(i 0).val / 8192, ht⟩ (1 : Fin 2) * 128 ≤ (i 1).val
      ∧ (i 1).val < win0_2.index ⟨(i 0).val / 8192, ht⟩ (1 : Fin 2) * 128 + 128
    rw [e21]; omega

/-! ## Region 1 -/

/-- The body's stored value at entry (p, q) of a block: the gathered block's entry (p, q) times the weight
    block's entry (p, 0). The two casts to the same shape change nothing. -/
theorem scale_block1_apply (x0 : Vec Ideal S8192x128 .f32) (x1 : Vec Ideal S8192x1 .f32) (p : Fin 8192) (q : Fin 128) :
    k1_pay1 (F := Ideal) x0 x1 (ix2 p q) = FloatOps.mulf (x0 (ix2 p q)) (x1 (ix2 p (0 : Fin 1))) := by
  unfold k1_pay1
  show FloatOps.mulf _ _ = _
  rw [shapeCast_self, shapeCast_self, shapeCast_self, column_broadcast_apply]

/-- The three index maps over the 208 grid points: point t has block index (t, 0) in every window. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The gathered rows' block at point t is rows 8192·t … 8192·t + 8191 of the array: its entry y is the array's
    entry k whenever k's row is 8192·t + y's row and the columns agree. -/
theorem rows_block1_apply (c : Dev nD) (t : Fin cfg1.N) (y : S8192x128.Idx) (k : S1703936x128.Idx)
    (h0 : (k 0).val = t.val * 8192 + (y 0).val) (h1 : (k 1).val = (y 1).val) :
    (iblk1 V c 0 t : Vec Ideal S8192x128 .f32) y = (V c main_v54 : S1703936x128.Idx → Elt Ideal .f32) k := by
  obtain ⟨e00, e01, -, -, -, -⟩ := index_maps1 t
  unfold iblk1
  rw [View.read_apply]
  show V c main_v54 _ = V c main_v54 _
  congr 1
  funext a
  apply Fin.ext
  match a with
  | ⟨0, _⟩ => show win1_0.index t (0 : Fin 2) * 8192 + 1 * (y 0).val = (k 0).val; rw [e00, h0]; omega
  | ⟨1, _⟩ => show win1_0.index t (1 : Fin 2) * 128 + 1 * (y 1).val = (k 1).val; rw [e01, h1]; omega

/-- The weight column's block at point t is rows 8192·t … 8192·t + 8191 of the column, likewise. -/
theorem column_block1_apply (c : Dev nD) (t : Fin cfg1.N) (y : S8192x1.Idx) (k : S1703936x1.Idx)
    (h0 : (k 0).val = t.val * 8192 + (y 0).val) (h1 : (k 1).val = (y 1).val) :
    (iblk1 V c 1 t : Vec Ideal S8192x1 .f32) y = (V c main_v36 : S1703936x1.Idx → Elt Ideal .f32) k := by
  obtain ⟨-, -, e10, e11, -, -⟩ := index_maps1 t
  unfold iblk1
  rw [View.read_apply]
  show V c main_v36 _ = V c main_v36 _
  congr 1
  funext a
  apply Fin.ext
  match a with
  | ⟨0, _⟩ => show win1_1.index t (0 : Fin 2) * 8192 + 1 * (y 0).val = (k 0).val; rw [e10, h0]; omega
  | ⟨1, _⟩ => show win1_1.index t (1 : Fin 2) * 1 + 1 * (y 1).val = (k 1).val; rw [e11, h1]; omega

/-- What point t writes back is block t of the row-scaled array: entry (p, q) of the block sits at row
    8192·t + p, column q of the array, where the scaled array holds the gathered entry times the weight of row
    8192·t + p, which is what the body computed from its two input blocks. -/
theorem flushed1_eq (c : Dev nD) (t : Fin cfg1.N) :
    (dat1 (F := Ideal) V c).flushed 2 t
      = ((cfg1.win 2).blk t).view.read (Elt Ideal) (Cert.Spec.scaleRows (F := Ideal) (V c main_v54) (V c main_v36)) := by
  show (cfg1.win 2).cut (grid1.coords t) ((dat1 V c).after 2 t) = _
  rw [after1_2]
  unfold out1_2
  rw [View.canon_unit_zero whole_block_offsets]
  simp only [View.ld_unit_zero (S := S8192x128) whole_block_offsets, View.ld_unit_zero (S := S8192x1) whole_block_offsets]
  obtain ⟨-, -, -, -, e20, e21⟩ := index_maps1 t
  funext j
  obtain ⟨p, q, rfl⟩ : ∃ (p : Fin 8192) (q : Fin 128), j = ix2 p q := ⟨j 0, j 1, eq_ix2 j⟩
  rw [View.read_apply]
  show k1_pay1 (F := Ideal) (iblk1 V c 0 t) (iblk1 V c 1 t) (ix2 p q)
    = FloatOps.mulf ((V c main_v54 : S1703936x128.Idx → Elt Ideal .f32) (((cfg1.win 2).blk t).view.emb (ix2 p q)))
        ((V c main_v36 : S1703936x1.Idx → Elt Ideal .f32) (ix2 ((((cfg1.win 2).blk t).view.emb (ix2 p q)) 0) (0 : Fin 1)))
  have hk0 : ((((cfg1.win 2).blk t).view.emb (ix2 p q)) 0).val = t.val * 8192 + p.val := by
    show win1_2.index t (0 : Fin 2) * 8192 + 1 * p.val = _
    rw [e20]; omega
  have hk1 : ((((cfg1.win 2).blk t).view.emb (ix2 p q)) 1).val = q.val := by
    show win1_2.index t (1 : Fin 2) * 128 + 1 * q.val = _
    rw [e21]; omega
  refine (scale_block1_apply _ _ p q).trans ?_
  exact congrArg₂ (FloatOps.mulf (F := Ideal) (φ := .f32))
    (rows_block1_apply V c t (ix2 p q) _ hk0 hk1)
    (column_block1_apply V c t (ix2 p (0 : Fin 1)) _ hk0 rfl)

/-- An entry of the output array is in point t's block iff, on each axis, its coordinate lies in the block's range. -/
theorem mem_block1 (t : Fin cfg1.N) (i : S1703936x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v55).slice (win1_2.rect t)).set ↔ _
  rw [View.set_slice_whole, Rect.mem_set_unit]
  exact Iff.rfl

/-- The 208 blocks of 8192 rows tile the 1,703,936 rows: entry (r, q) is in the block of point r / 8192. -/
theorem covered1 (i : S1703936x128.Idx) :
    ∃ t : Fin cfg1.N, (cfg1.win 2).flush t = true ∧ i ∈ ((cfg1.win 2).blk t).view.set := by
  have hi0 : (i 0).val < 1703936 := (i 0).isLt
  have hi1 : (i 1).val < 128 := (i 1).isLt
  have hN : grid1.N = 208 := N_1
  have ht : (i 0).val / 8192 < cfg1.N := by show _ < grid1.N; rw [hN]; omega
  obtain ⟨-, -, -, -, e20, e21⟩ := index_maps1 ⟨(i 0).val / 8192, ht⟩
  refine ⟨⟨(i 0).val / 8192, ht⟩, flush1_2 _, ?_⟩
  rw [mem_block1]
  intro a
  match a with
  | ⟨0, _⟩ =>
    show win1_2.index ⟨(i 0).val / 8192, ht⟩ (0 : Fin 2) * 8192 ≤ (i 0).val
      ∧ (i 0).val < win1_2.index ⟨(i 0).val / 8192, ht⟩ (0 : Fin 2) * 8192 + 8192
    rw [e20]
    show (i 0).val / 8192 * 8192 ≤ (i 0).val ∧ (i 0).val < (i 0).val / 8192 * 8192 + 8192
    omega
  | ⟨1, _⟩ =>
    show win1_2.index ⟨(i 0).val / 8192, ht⟩ (1 : Fin 2) * 128 ≤ (i 1).val
      ∧ (i 1).val < win1_2.index ⟨(i 0).val / 8192, ht⟩ (1 : Fin 2) * 128 + 128
    rw [e21]; omega

end Scale

open Scale

/-- Region 0 (the first row-scaling call): after its 208 points the output array holds every row of the gathered
    features times that row's weight. -/
theorem region0_out (c : Dev nD) :
    (dat0 (F := Ideal) V c).arrAt 2 cfg0.N = Cert.Spec.scaleRows (F := Ideal) (V c main_v43) (V c main_v36) :=
  (dat0 (F := Ideal) V c).arrAt_eq_of_cover 2 (Cert.Spec.scaleRows (F := Ideal) (V c main_v43) (V c main_v36))
    (fun t _ => flushed0_eq V c t) covered0

/-- Region 1 (the second row-scaling call), likewise. -/
theorem region1_out (c : Dev nD) :
    (dat1 (F := Ideal) V c).arrAt 2 cfg1.N = Cert.Spec.scaleRows (F := Ideal) (V c main_v54) (V c main_v36) :=
  (dat1 (F := Ideal) V c).arrAt_eq_of_cover 2 (Cert.Spec.scaleRows (F := Ideal) (V c main_v54) (V c main_v36))
    (fun t _ => flushed1_eq V c t) covered1

end Cert.KernelIdeal.RegionValue

end
-- ==== Proof.KLinear.lean ====
/-
  What the closing layer's region leaves in its output array: h · W + b as one whole-array function of the three
  arrays the region finds at entry, on the extended reals.
-/
import proofs.«164959_j34892314312745_1_alg».proof.Proof.Gen.KernelIdeal.Frame
import proofs.«164959_j34892314312745_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The body's arithmetic at an index -/

/-- The left operand's row is the output's row. -/
theorem lhs_linear_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted coordinate. -/
theorem lhs_linear_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contracted coordinate. -/
theorem rhs_linear_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_linear_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, read at an index: the sum over the 128 contracted coordinates. -/
theorem matmul_linear_apply (a : FVec Ideal S2000x128 .bf16) (w : FVec Ideal S128x128 .bf16) (j : S2000x128.Idx) :
    matmul (F := Ideal) dot_S2000x128_S128x128_S2000x128_1_0_0_1_n_n none a w (constant (F := Ideal) S2000x128 .f32 0x00000000#32) j
      = ∑ k : Fin 128, a (ValueIdx.ix2 (j 0) k) * w (ValueIdx.ix2 k (j 1)) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = ValueIdx.ix2 (j 0) k := funext fun b => Fin.ext (by
    match b with
    | ⟨0, _⟩ => exact lhs_linear_0 _ _
    | ⟨1, _⟩ => exact (lhs_linear_1 _ _).trans hk)
  have er : dot_S2000x128_S128x128_S2000x128_1_0_0_1_n_n.rhsIdx j ((ValueIdx.contrEquiv1 dot_S2000x128_S128x128_S2000x128_1_0_0_1_n_n 128 rfl rfl).symm k) = ValueIdx.ix2 k (j 1) := funext fun b => Fin.ext (by
    match b with
    | ⟨0, _⟩ => exact (rhs_linear_0 _ _).trans hk
    | ⟨1, _⟩ => exact rhs_linear_1 _ _)
  rw [el, er]
  rfl

/-- The bias row broadcast down the block's rows, read at an index: the bias at the index's column. -/
theorem bias_linear_apply (b : FVec Ideal S1x128 .f32) (j : S2000x128.Idx) :
    broadcastTo S2000x128 b broadcasts_S1x128_S2000x128 j = b (ValueIdx.ix2 (0 : Fin 1) (j 1)) :=
  broadcastTo_apply b broadcasts_S1x128_S2000x128 j (ValueIdx.ix2 (0 : Fin 1) (j 1)) (fun a => by
    match a with
    | ⟨0, _⟩ => rfl
    | ⟨1, _⟩ => rfl)

/-- What the body stores, read at an index of the block: row · column of the weights, plus the bias. -/
theorem pay_linear_apply (x0 : Vec Ideal S2000x128 .f32) (x1 : Vec Ideal S128x128 .f32) (x2 : Vec Ideal S1x128 .f32) (j : S2000x128.Idx) :
    k2_pay1 (F := Ideal) x0 x1 x2 j
      = (∑ k : Fin 128, x0 (ValueIdx.ix2 (j 0) k) * x1 (ValueIdx.ix2 k (j 1))) + x2 (ValueIdx.ix2 (0 : Fin 1) (j 1)) := by
  unfold k2_pay1
  rw [ValueIdx.addf_apply, matmul_linear_apply, bias_linear_apply]
  simp only [shapeCast_self, ValueIdx.truncf_apply]

/-- The same, for three blocks that are restrictions of whole arrays `h`, `W`, `b`: when the block index `j` sits at
    the array index `i` (rows of `x0` are rows of `h` from row `i 0` on, `x1` is `W`, `x2` is `b`), the stored value is
    the closing layer's at `i`. -/
theorem pay_linear_of_blocks (h : FVec Ideal S100000x128 .f32) (W : FVec Ideal S128x128 .f32) (b : FVec Ideal S1x128 .f32)
    (x0 : Vec Ideal S2000x128 .f32) (x1 : Vec Ideal S128x128 .f32) (x2 : Vec Ideal S1x128 .f32) (j : S2000x128.Idx) (i : S100000x128.Idx)
    (e0 : ∀ k : Fin 128, x0 (ValueIdx.ix2 (j 0) k) = h (ValueIdx.ix2 (i 0) k))
    (e1 : ∀ k : Fin 128, x1 (ValueIdx.ix2 k (j 1)) = W (ValueIdx.ix2 k (i 1)))
    (e2 : x2 (ValueIdx.ix2 (0 : Fin 1) (j 1)) = b (ValueIdx.ix2 (0 : Fin 1) (i 1))) :
    k2_pay1 (F := Ideal) x0 x1 x2 j = Cert.Spec.linear h W b i := by
  rw [pay_linear_apply, e2]
  unfold Cert.Spec.linear
  exact congrArg (· + b (ValueIdx.ix2 (0 : Fin 1) (i 1))) (Finset.sum_congr rfl fun k _ => by rw [e0 k, e1 k])

/-! ## From the 50 row blocks to the array -/

/-- The two zero offsets of a whole-block access, as the constant function. -/
theorem zero_offsets : (![0, 0] : Fin 2 → Nat) = fun _ => 0 := funext fun a => by fin_cases a <;> rfl

/-- The printed index maps over the 50 points: the input rows' and the output's row-block index is the point's number;
    every other block index is 0 (the weights and the bias are whole at every point). -/
theorem index_maps_linear : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every one of the 50 row blocks of the output is some point's. -/
theorem row_block_onto : ∀ q : Fin 50, ∃ t : Fin cfg2.N, win2_3.index t = ![q.val, 0] :=
  (by decide +kernel : ∀ q : Fin 50, ∃ t : Fin grid2.N, win2_3.index t = ![q.val, 0])

/-- What point `t` writes back is block `t` of h · W + b of the three arrays as the region finds them. -/
theorem flushed_linear (c : Dev nD) (t : Fin cfg2.N) :
    (dat2 (F := Ideal) V c).flushed 3 t
      = ((cfg2.win 3).blk t).view.read (Elt Ideal) (Cert.Spec.linear (V c main_v58) (V c main_arg2) (V c main_v59)) := by
  show (cfg2.win 3).cut (grid2.coords t) ((dat2 (F := Ideal) V c).after 3 t) = _
  rw [after2_3]
  unfold out2_3
  rw [View.canon_unit_zero zero_offsets]
  simp only [View.ld_unit_zero (S := S2000x128) zero_offsets, View.ld_unit_zero (S := S128x128) zero_offsets, View.ld_unit_zero (S := S1x128) zero_offsets]
  obtain ⟨a00, a01, a10, a11, a20, a21, a30, a31⟩ := index_maps_linear t
  funext j
  refine pay_linear_of_blocks (V c main_v58) (V c main_arg2) (V c main_v59) _ _ _ j (((cfg2.win 3).blk t).view.emb j) (fun k => ?_) (fun k => ?_) ?_
  · show V c main_v58 (((cfg2.win 0).blk t).view.emb (ValueIdx.ix2 (j 0) k)) = _
    refine congrArg (V c main_v58) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * k.val = k.val; omega
  · show V c main_arg2 (((cfg2.win 1).blk t).view.emb (ValueIdx.ix2 k (j 1))) = _
    refine congrArg (V c main_arg2) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  · show V c main_v59 (((cfg2.win 2).blk t).view.emb (ValueIdx.ix2 (0 : Fin 1) (j 1))) = _
    refine congrArg (V c main_v59) (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega

/-- An index of the output array is in point `t`'s block iff each coordinate is in the block's range on its axis. -/
theorem mem_block_linear (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v60).slice (win2_3.rect t)).set ↔ _
  rw [View.set_slice_whole, Rect.mem_set_unit]
  exact Iff.rfl

/-- The 50 blocks of 2000 rows fill the 100000 rows: row `r` is in the block of point `r / 2000`. -/
theorem cover_linear (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := row_block_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_block_linear]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- Region 2 (the closing layer): after its 50 points the output array holds h · W + b. -/
theorem region2_out (c : Dev nD) :
    (dat2 (F := Ideal) V c).arrAt 3 cfg2.N = Cert.Spec.linear (V c main_v58) (V c main_arg2) (V c main_v59) :=
  (dat2 (F := Ideal) V c).arrAt_eq_of_cover 3 _ (fun t _ => flushed_linear V c t) cover_linear

end Cert.KernelIdeal.RegionValue

end
-- ==== Proof.KChain.lean ====
/-
  The kernel's result as two padded hops and the closing layer.  Each region's output array is the whole-array
  function of its entry arrays; each host stretch between regions is read back operation by operation; the
  tables and the weight column, written before the first region, are never written again.
-/
import proofs.«164959_j34892314312745_1_alg».proof.Proof.Gen.KernelIdeal.Frame
import proofs.«164959_j34892314312745_1_alg».proof.Proof.Spec
import proofs.«164959_j34892314312745_1_alg».proof.Proof.KEntry
import proofs.«164959_j34892314312745_1_alg».proof.Proof.KScale
import proofs.«164959_j34892314312745_1_alg».proof.Proof.KLinear
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-- A buffer that no operation of a host stretch writes holds after the stretch what it held before. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg)

/-! ## Region 0 and the stretch after it -/

/-- The first row-scaling region leaves the gathered rows times the weight column. -/
theorem scaled_first (c : Dev nD) :
    W4 m ρ c (Proc.devRef .tc main_v44)
      = Cert.Spec.scaleRows (F := Ideal) (W3 m ρ c (Proc.devRef .tc main_v43)) (W3 m ρ c (Proc.devRef .tc main_v36)) :=
  (W4_arr m ρ c 2).trans (RegionValue.region0_out (V3 m ρ) c)

theorem sources_after0 (c : Dev nD) : W4 m ρ c (Proc.devRef .tc main_v31) = W3 m ρ c (Proc.devRef .tc main_v31) :=
  W4_of_ne m ρ c main_v31 (by decide)
theorem destinations_after0 (c : Dev nD) : W4 m ρ c (Proc.devRef .tc main_v33) = W3 m ρ c (Proc.devRef .tc main_v33) :=
  W4_of_ne m ρ c main_v33 (by decide)
/-- The weight column is an input of the region: its array is as entered. -/
theorem weights_after0 (c : Dev nD) : W4 m ρ c (Proc.devRef .tc main_v36) = W3 m ρ c (Proc.devRef .tc main_v36) :=
  (W4_arr m ρ c 1).trans (((dat0 (F := Ideal) (V3 m ρ) c).arrAt_in 1 rfl _).trans (A_eq0 (V3 m ρ) c 1))

set_option maxHeartbeats 4000000 in
/-- Between the two row-scaling regions: the scaled rows are summed into the destinations' rows from zero, and the
    rows of that sum are gathered at the padded, shifted sources. -/
theorem rows_second (c : Dev nD) :
    W5 m ρ c (Proc.devRef .tc main_v54)
      = Host.gather gather_S100000x128_S1703936x1_S1703936x128_1_0_n_n_0_1_1128
          (Host.scatterAdd scatter_S100000x128_S1703936x1_S1703936x128_1_0_0_1
            (broadcastInDim S100000x128 ![] Facts₀.bcast_S_S100000x128 (constant (F := Ideal) S_ .f32 0x00000000#32))
            (broadcastInDim S1703936x1 ![0] Facts₀.bcast_S1703936_S1703936x1_0 (W4 m ρ c (Proc.devRef .tc main_v33)))
            (W4 m ρ c (Proc.devRef .tc main_v44)))
          (broadcastInDim S1703936x1 ![0] Facts₀.bcast_S1703936_S1703936x1_0
            (Cert.Spec.wrapK (W4 m ρ c (Proc.devRef .tc main_v31)))) := by
  show StableHlo.after hostOps1 (W4 m ρ c) (Proc.devRef .tc main_v54) = _
  generalize W4 m ρ c = V0
  after_results_simp
  rfl

theorem destinations_before1 (c : Dev nD) : W5 m ρ c (Proc.devRef .tc main_v33) = W4 m ρ c (Proc.devRef .tc main_v33) := by
  show StableHlo.after hostOps1 (W4 m ρ c) (Proc.devRef .tc main_v33) = _
  host_keeps hostOps1
theorem weights_before1 (c : Dev nD) : W5 m ρ c (Proc.devRef .tc main_v36) = W4 m ρ c (Proc.devRef .tc main_v36) := by
  show StableHlo.after hostOps1 (W4 m ρ c) (Proc.devRef .tc main_v36) = _
  host_keeps hostOps1

/-! ## Region 1 and the stretch after it -/

/-- The second row-scaling region, likewise. -/
theorem scaled_second (c : Dev nD) :
    W6 m ρ c (Proc.devRef .tc main_v55)
      = Cert.Spec.scaleRows (F := Ideal) (W5 m ρ c (Proc.devRef .tc main_v54)) (W5 m ρ c (Proc.devRef .tc main_v36)) :=
  (W6_arr m ρ c 2).trans (RegionValue.region1_out (V5 m ρ) c)

theorem destinations_after1 (c : Dev nD) : W6 m ρ c (Proc.devRef .tc main_v33) = W5 m ρ c (Proc.devRef .tc main_v33) :=
  W6_of_ne m ρ c main_v33 (by decide)

set_option maxHeartbeats 4000000 in
/-- Before the closing layer: the second hop's sum. -/
theorem features_last (c : Dev nD) :
    W7 m ρ c (Proc.devRef .tc main_v58)
      = Host.scatterAdd scatter_S100000x128_S1703936x1_S1703936x128_1_0_0_1
          (broadcastInDim S100000x128 ![] Facts₀.bcast_S_S100000x128 (constant (F := Ideal) S_ .f32 0x00000000#32))
          (broadcastInDim S1703936x1 ![0] Facts₀.bcast_S1703936_S1703936x1_0 (W6 m ρ c (Proc.devRef .tc main_v33)))
          (W6 m ρ c (Proc.devRef .tc main_v55)) := by
  show StableHlo.after hostOps2 (W6 m ρ c) (Proc.devRef .tc main_v58) = _
  generalize W6 m ρ c = V0
  after_results

set_option maxHeartbeats 4000000 in
/-- The bias as a row. -/
theorem bias_last (c : Dev nD) :
    W7 m ρ c (Proc.devRef .tc main_v59)
      = shapeCast S1x128 (W6 m ρ c (Proc.devRef .tc main_arg3)) Facts₀.shapeCasts_S128_S1x128 := by
  show StableHlo.after hostOps2 (W6 m ρ c) (Proc.devRef .tc main_v59) = _
  generalize W6 m ρ c = V0
  after_results
  rfl

/-! ## The arguments the closing layer reads are as launched -/

/-- The weight matrix is an input of the closing region: its array is as entered, and as launched. -/
theorem weights_matrix_last (c : Dev nD) : W7 m ρ c (Proc.devRef .tc main_arg2) = m ((c : Thread nD τ).loc main_arg2) :=
  ((W8_arr m ρ c 1).trans (((dat2 (F := Ideal) (V7 m ρ) c).arrAt_in 1 rfl _).trans (A_eq2 (V7 m ρ) c 1))).symm.trans
    (W8_main_arg2 m ρ c)

theorem bias_before_last (c : Dev nD) : W6 m ρ c (Proc.devRef .tc main_arg3) = m ((c : Thread nD τ).loc main_arg3) := by
  have h : W7 m ρ c (Proc.devRef .tc main_arg3) = W6 m ρ c (Proc.devRef .tc main_arg3) := by
    show StableHlo.after hostOps2 (W6 m ρ c) (Proc.devRef .tc main_arg3) = _
    host_keeps hostOps2
  exact h.symm.trans ((W8_of_ne m ρ c main_arg3 (by decide)).symm.trans (W8_main_arg3 m ρ c))

theorem features_first (c : Dev nD) : W2 m ρ c (Proc.devRef .tc main_arg0) = m ((c : Thread nD τ).loc main_arg0) := by
  have h1 : W2 m ρ c (Proc.devRef .tc main_arg0) = W1 m ρ c (Proc.devRef .tc main_arg0) := by
    show StableHlo.after hostOps0_1 (W1 m ρ c) (Proc.devRef .tc main_arg0) = _
    host_keeps hostOps0_1
  have h0 : W1 m ρ c (Proc.devRef .tc main_arg0) = W0 m ρ c (Proc.devRef .tc main_arg0) := by
    show StableHlo.after hostOps0 (W0 m ρ c) (Proc.devRef .tc main_arg0) = _
    host_keeps hostOps0
  exact h1.trans (h0.trans rfl)

/-! ## The result -/

/-- The closing layer's region leaves h · W + b of the arrays it finds. -/
theorem closing (c : Dev nD) :
    W8 m ρ c (Proc.devRef .tc main_v60)
      = Cert.Spec.linear (W7 m ρ c (Proc.devRef .tc main_v58)) (W7 m ρ c (Proc.devRef .tc main_arg2))
          (W7 m ρ c (Proc.devRef .tc main_v59)) :=
  (W8_arr m ρ c 3).trans (RegionValue.region2_out (V7 m ρ) c)

/-- THE RESULT BUFFER after the run: the closing layer of two padded hops of the node features, over the tables
    `S`, `D` and the inverse-root degrees `dinv` the first host operations left. -/
theorem result (c : Dev nD) :
    W8 m ρ c (Proc.devRef .tc main_v60)
      = Cert.Spec.linear
          (Cert.Spec.hopK (F := Ideal) (W2 m ρ c (Proc.devRef .tc main_v3)) (W2 m ρ c (Proc.devRef .tc main_v6))
            (weightOf (W2 m ρ c (Proc.devRef .tc main_v3)) (W2 m ρ c (Proc.devRef .tc main_v6)) (W2 m ρ c (Proc.devRef .tc main_v14)))
            (Cert.Spec.hopK (F := Ideal) (W2 m ρ c (Proc.devRef .tc main_v3)) (W2 m ρ c (Proc.devRef .tc main_v6))
              (weightOf (W2 m ρ c (Proc.devRef .tc main_v3)) (W2 m ρ c (Proc.devRef .tc main_v6)) (W2 m ρ c (Proc.devRef .tc main_v14)))
              (m ((c : Thread nD τ).loc main_arg0))))
          (m ((c : Thread nD τ).loc main_arg2))
          (shapeCast S1x128 (m ((c : Thread nD τ).loc main_arg3)) Facts₀.shapeCasts_S128_S1x128) := by
  rw [closing, features_last, bias_last, weights_matrix_last, bias_before_last, scaled_second, rows_second,
    destinations_after1, destinations_before1, weights_before1, destinations_after0, weights_after0, sources_after0,
    scaled_first, entry_sources, entry_destinations, entry_weights, entry_rows, features_first]
  rfl

end Cert.KernelIdeal.Chain

end
-- ==== Proof.lean ====
/-
  Two rounds of normalised neighbourhood averaging on a graph, then a dense layer.

  From the edge list both programs build the same three tables: sources `S` and destinations `D` (the 1,600,000
  given edges followed by one self-loop per node) and the edge weights `Nm e = dinv[S e] · dinv[D e]`, `dinv` the
  inverse root of the in-degree (zero where the degree is not positive).  One hop maps node features `h` to
  out[v] = Σ_{e : D e = v} h[S e] · Nm e, and the result is (hop (hop x)) · W + b.

  The reference sums over the 1,700,000 edges.  The kernel pads the three tables with 3,936 edges of source 0,
  destination 0 and weight 0, multiplies the gathered rows by the weight column in blocks of 8192 rows (a region of
  208 grid points, run twice), sums all 1,703,936 rows, and computes the dense layer in blocks of 2000 rows (a
  region of 50 grid points) with the matrix unit.  On the extended reals a padding row contributes
  `h[0] · 0 = 0` to row 0 whatever `h[0]` is, so a padded hop is a hop (`Cert.Spec.hop_eq`; no finiteness of the
  inputs is used), a change of float format is the identity, and the matrix unit's product into a zero accumulator is
  the reference's dot product; so the two results are one function of the arguments, entry by entry.

  Each region's output array is read off the pipeline's proof data as a whole-array function of the arrays the
  region finds at entry (Proof/KScale.lean, Proof/KLinear.lean); the host operations between the regions are read
  back one by one (Proof/KEntry.lean, Proof/KChain.lean), the tables identified with the reference's own stages
  (Proof/KTables.lean); the reference's result is its staged value (Proof/RefValue.lean).  The idealization rewrote
  no operation, so `preserves` has nothing to state.
-/
import proofs.«164959_j34892314312745_1_alg».proof.Defs
import proofs.«164959_j34892314312745_1_alg».proof.Proof.Gen.Kernel
import proofs.«164959_j34892314312745_1_alg».proof.Proof.Gen.Kernel.Skeleton
import proofs.«164959_j34892314312745_1_alg».proof.Proof.Gen.Kernel.Launch
import proofs.«164959_j34892314312745_1_alg».proof.Proof.Gen.Kernel.Points
import proofs.«164959_j34892314312745_1_alg».proof.Proof.Gen.Kernel.Frame
import proofs.«164959_j34892314312745_1_alg».proof.Proof.Gen.KernelIdeal
import proofs.«164959_j34892314312745_1_alg».proof.Proof.Gen.KernelIdeal.Skeleton
import proofs.«164959_j34892314312745_1_alg».proof.Proof.Gen.KernelIdeal.Launch
import proofs.«164959_j34892314312745_1_alg».proof.Proof.Gen.KernelIdeal.Points
import proofs.«164959_j34892314312745_1_alg».proof.Proof.Gen.KernelIdeal.Frame
import proofs.«164959_j34892314312745_1_alg».proof.Proof.Gen.ReferenceIdeal
import proofs.«164959_j34892314312745_1_alg».proof.Proof.Gen.Pre_finite_inputs
import proofs.«164959_j34892314312745_1_alg».proof.Proof.RefRun
import proofs.«164959_j34892314312745_1_alg».proof.Proof.RefRead
import proofs.«164959_j34892314312745_1_alg».proof.Proof.RefValue
import proofs.«164959_j34892314312745_1_alg».proof.Proof.Spec
import proofs.«164959_j34892314312745_1_alg».proof.Proof.Hop
import proofs.«164959_j34892314312745_1_alg».proof.Proof.KRun
import proofs.«164959_j34892314312745_1_alg».proof.Proof.KTables
import proofs.«164959_j34892314312745_1_alg».proof.Proof.KChain
import Idealize.ShloMosaic.Adequacy
import Idealize.ShloMosaic.Init

noncomputable section

namespace Cert.Proof

open Idealize.ShloMosaic Idealize.ShloMosaic.TcCoe Idealize.SL.Sem

/-- The three frames: the two kernels' by the launch over @main's segments, the reference's by its run with the
    result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

open Cert.ReferenceIdeal.ReadP in
/-- On the extended reals the kernel's result — the dense layer of two padded hops — is the reference's staged
    result of the same arguments: a padded hop is a hop, and the two dense layers are one sum. -/
theorem value_eq (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) :
    Cert.Spec.linear
        (Cert.Spec.hopK (F := Ideal) (val_main_v3 (F := Ideal) x1) (val_main_v6 (F := Ideal) x1) (val_main_v29 (F := Ideal) x1)
          (Cert.Spec.hopK (F := Ideal) (val_main_v3 (F := Ideal) x1) (val_main_v6 (F := Ideal) x1) (val_main_v29 (F := Ideal) x1) x0))
        x2 (shapeCast Cert.KernelIdeal.S1x128 x3 Cert.KernelIdeal.Facts₀.shapeCasts_S128_S1x128)
      = val_main_v59 (F := Ideal) x0 x1 x2 x3 := by
  rw [Cert.Spec.hop_eq, Cert.Spec.hop_eq, Cert.ReferenceIdeal.RefValue.result_eq_linear,
    Cert.ReferenceIdeal.RefValue.second_hop, Cert.ReferenceIdeal.RefValue.first_hop]

/-- Both idealized programs run, from memories agreeing on the arguments, to equal results: the kernel's result
    buffer ends at the last boundary's contents, which is the dense layer of two padded hops over the tables;
    the reference's at its staged value. -/
theorem algebraic : Cert.algebraic_KernelIdeal_ReferenceIdeal := by
  intro m ρ m' ρ' _ hagree
  refine ⟨fun c => Cert.KernelIdeal.Gen.W8 m ρ c (Proc.devRef .tc Cert.KernelIdeal.main_v60),
    Cert.KernelIdeal.RunOut.run_out m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v59 m' c
    = Cert.KernelIdeal.Gen.W8 m ρ c (Proc.devRef .tc Cert.KernelIdeal.main_v60)
  rw [Cert.ReferenceIdeal.ReadP.val_main_v59_eq, (hagree c).1, (hagree c).2.1, (hagree c).2.2.1, (hagree c).2.2.2,
    Cert.KernelIdeal.Chain.result, Cert.KernelIdeal.Chain.table_sources, Cert.KernelIdeal.Chain.table_destinations,
    Cert.KernelIdeal.Chain.table_dinv, Cert.KernelIdeal.Chain.weights_eq]
  exact (value_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
